-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S3072x768 : S_.BroadcastsInDim S3072x768 (![] : Fin 0 → Fin S3072x768.rank)
  reducesTo_S3072x768_S_d0_1 : S3072x768.ReducesTo [0, 1] S_
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x3072 1) : IVec S_ 1 :=
  let main_c_5 : IVec S_ 1 := constantI S_ 1 1#1
  let main_v17 : IVec S_ 1 := (fun x v => Host.reduce IntOp.andi x v reducesTo_S768x3072_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S4x2048x768 .f32) (main_arg1 : FVec F S3072x768 .f32) (main_arg2 : FVec F S3072 .f32) (main_arg3 : FVec F S768x3072 .f32) (main_arg4 : FVec F S768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S3072x768 .f32 := Host.absf main_arg1
  let main_cst_0 : FVec F S_ .f32 := constant S_ .f32 0x7F800000#32
  let main_v5 : FVec F S3072x768 .f32 := broadcastInDim S3072x768 ![] bcast_S_S3072x768 main_cst_0
  let main_v6 : IVec S3072x768 1 := cmpf .olt main_v4 main_v5
  let main_c_1 : IVec S_ 1 := constantI S_ 1 1#1
  let main_v7 : IVec S_ 1 := (fun x v => Host.reduce IntOp.andi x v reducesTo_S3072x768_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S768x3072 .f32 := Host.absf main_arg3
  let main_cst_4 : FVec F S_ .f32 := constant S_ .f32 0x7F800000#32
  let main_v15 : FVec F S768x3072 .f32 := broadcastInDim S768x3072 ![] bcast_S_S768x3072 main_cst_4
  let main_v16 : IVec S768x3072 1 := cmpf .olt main_v14 main_v15
  fn_part1 (F := F) main_arg4 main_v13 main_v16
-- ==== Kernel.lean ====
abbrev S4x2048x768 : Shape := ⟨3, ![4, 2048, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S8192x768 : Shape := ⟨2, ![8192, 768]⟩
abbrev S1x3072 : Shape := ⟨2, ![1, 3072]⟩
abbrev S1x768 : Shape := ⟨2, ![1, 768]⟩
abbrev S1024x768 : Shape := ⟨2, ![1024, 768]⟩
abbrev S1024x3072 : Shape := ⟨2, ![1024, 3072]⟩

abbrev nBuf : Space → Nat
  | .hbm => 10
  | .vmem => 8
  | .smem => 0
  | _ => 0

abbrev bufTy : (tb : Table) → Fin (tcTables nBuf tb) → BufTy
  | .hbm, ⟨0, _⟩ => ⟨S4x2048x768, .f32⟩
  | .hbm, ⟨1, _⟩ => ⟨S3072x768, .f32⟩
  | .hbm, ⟨2, _⟩ => ⟨S3072, .f32⟩
  | .hbm, ⟨3, _⟩ => ⟨S768x3072, .f32⟩
  | .hbm, ⟨4, _⟩ => ⟨S768, .f32⟩
  | .hbm, ⟨5, _⟩ => ⟨S8192x768, .f32⟩
  | .hbm, ⟨6, _⟩ => ⟨S1x3072, .f32⟩
  | .hbm, ⟨7, _⟩ => ⟨S1x768, .f32⟩
  | .hbm, ⟨8, _⟩ => ⟨S8192x768, .f32⟩
  | .hbm, ⟨9, _⟩ => ⟨S4x2048x768, .f32⟩
  | .local _ .vmem, ⟨0, _⟩ => ⟨S1024x768, .f32⟩
  | .local _ .vmem, ⟨1, _⟩ => ⟨S1024x768, .f32⟩
  | .local _ .vmem, ⟨2, _⟩ => ⟨S3072x768, .f32⟩
  | .local _ .vmem, ⟨3, _⟩ => ⟨S1x3072, .f32⟩
  | .local _ .vmem, ⟨4, _⟩ => ⟨S768x3072, .f32⟩
  | .local _ .vmem, ⟨5, _⟩ => ⟨S1x768, .f32⟩
  | .local _ .vmem, ⟨6, _⟩ => ⟨S1024x768, .f32⟩
  | .local _ .vmem, ⟨7, _⟩ => ⟨S1024x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x768_S8192x768 : S4x2048x768.ShapeCasts S8192x768
  shapeCasts_S3072_S1x3072 : S3072.ShapeCasts S1x3072
  shapeCasts_S768_S1x768 : S768.ShapeCasts S1x768
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  bitsLt_bf16_f32 : FTy.bits .bf16 < FTy.bits .f32
  inb_S3072x768_S3072x768_0_0 : ∀ a, (![0, 0] : Fin 2 → Nat) a + S3072x768.size a ≤ S3072x768.size a
  h_S3072x768 : 0 < S3072x768.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S1024x3072 : S1x3072.Broadcasts S1024x3072
  inb_S768x3072_S768x3072_0_0 : ∀ a, (![0, 0] : Fin 2 → Nat) a + S768x3072.size a ≤ S768x3072.size a
  h_S768x3072 : 0 < S768x3072.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  shapeCasts_S8192x768_S4x2048x768 : S8192x768.ShapeCasts S4x2048x768
  dot_S1024x768_S3072x768_S1024x3072_1_1_0_0_n_n_wf : DotDims.WF S1024x768 S3072x768 S1024x3072 [1] [1] [0] [0] [] []
  dot_S1024x3072_S768x3072_S1024x768_1_1_0_0_n_n_wf : DotDims.WF S1024x3072 S768x3072 S1024x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .f32 = 32 ∨ (Rect.block (s := S8192x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x768.size a ≤ S3072x768.size a
  hwx0_1 : ∀ i : grid0.Coords, EltTy.bits .f32 = 32 ∨ (Rect.block (s := S3072x768) S3072x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x3072.size a ≤ S768x3072.size a
  hwx0_3 : ∀ i : grid0.Coords, EltTy.bits .f32 = 32 ∨ (Rect.block (s := S768x3072) S768x3072.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x768.size a ≤ S8192x768.size a
  hwx0_5 : ∀ i : grid0.Coords, EltTy.bits .f32 = 32 ∨ (Rect.block (s := S8192x768) S1024x768.size (cc0_transform_5 i) (hinb0_5 i)).WholeWords (EltTy.packing .f32)

variable [Facts₀]

def dot_S1024x768_S3072x768_S1024x3072_1_1_0_0_n_n : DotDims S1024x768 S3072x768 S1024x3072 where
  lhsContracting := [1]
  rhsContracting := [1]
  lhsNonContracting := [0]
  rhsNonContracting := [0]
  lhsBatch := []
  rhsBatch := []
  wf := dot_S1024x768_S3072x768_S1024x3072_1_1_0_0_n_n_wf
def dot_S1024x3072_S768x3072_S1024x768_1_1_0_0_n_n : DotDims S1024x3072 S768x3072 S1024x768 where
  lhsContracting := [1]
  rhsContracting := [1]
  lhsNonContracting := [0]
  rhsNonContracting := [0]
  lhsBatch := []
  rhsBatch := []
  wf := dot_S1024x3072_S768x3072_S1024x768_1_1_0_0_n_n_wf

abbrev win0_0 : Pipeline.Window sig grid0 :=
  Pipeline.Window.ofSpec (Memref.whole main_v0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3072x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x768 : Shape := ⟨3, ![4, 2048, 768]⟩
abbrev S3072x768 : Shape := ⟨2, ![3072, 768]⟩
abbrev S3072 : Shape := ⟨1, ![3072]⟩
abbrev S768x3072 : Shape := ⟨2, ![768, 3072]⟩
abbrev S768 : Shape := ⟨1, ![768]⟩
abbrev S4x2048x3072 : Shape := ⟨3, ![4, 2048, 3072]⟩
abbrev S1x1x3072 : Shape := ⟨3, ![1, 1, 3072]⟩
abbrev S_ : Shape := ⟨0, ![]⟩
abbrev S1x1x768 : Shape := ⟨3, ![1, 1, 768]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S3072x768, .f32⟩
  | .hbm, ⟨2, _⟩ => ⟨S3072, .f32⟩
  | .hbm, ⟨3, _⟩ => ⟨S768x3072, .f32⟩
  | .hbm, ⟨4, _⟩ => ⟨S768, .f32⟩
  | .hbm, ⟨5, _⟩ => ⟨S4x2048x3072, .f32⟩
  | .hbm, ⟨6, _⟩ => ⟨S1x1x3072, .f32⟩
  | .hbm, ⟨7, _⟩ => ⟨S4x2048x3072, .f32⟩
  | .hbm, ⟨8, _⟩ => ⟨S4x2048x3072, .f32⟩
  | .hbm, ⟨9, _⟩ => ⟨S_, .f32⟩
  | .hbm, ⟨10, _⟩ => ⟨S4x2048x3072, .f32⟩
  | .hbm, ⟨11, _⟩ => ⟨S4x2048x3072, .f32⟩
  | .hbm, ⟨12, _⟩ => ⟨S4x2048x768, .f32⟩
  | .hbm, ⟨13, _⟩ => ⟨S1x1x768, .f32⟩
  | .hbm, ⟨14, _⟩ => ⟨S4x2048x768, .f32⟩
  | .hbm, ⟨15, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x2048x3072_0_1_2 : S1x1x3072.BroadcastsInDim S4x2048x3072 (![0, 1, 2] : Fin 3 → Fin S4x2048x3072.rank)
  bcast_S_S4x2048x3072 : S_.BroadcastsInDim S4x2048x3072 (![] : Fin 0 → Fin S4x2048x3072.rank)
  bcast_S768_S1x1x768_2 : S768.BroadcastsInDim S1x1x768 (![2] : Fin 1 → Fin S1x1x768.rank)
  bcast_S1x1x768_S4x2048x768_0_1_2 : S1x1x768.BroadcastsInDim S4x2048x768 (![0, 1, 2] : Fin 3 → Fin S4x2048x768.rank)
  dot_S4x2048x768_S3072x768_S4x2048x3072_2_1_01_0_n_n_wf : DotDims.WF S4x2048x768 S3072x768 S4x2048x3072 [2] [1] [0, 1] [0] [] []
  dot_S4x2048x3072_S768x3072_S4x2048x768_2_1_01_0_n_n_wf : DotDims.WF S4x2048x3072 S768x3072 S4x2048x768 [2] [1] [0, 1] [0] [] []

variable [Facts₀]

def dot_S4x2048x768_S3072x768_S4x2048x3072_2_1_01_0_n_n : DotDims S4x2048x768 S3072x768 S4x2048x3072 where
  lhsContracting := [2]
  rhsContracting := [1]
  lhsNonContracting := [0, 1]
  rhsNonContracting := [0]
  lhsBatch := []
  rhsBatch := []
  wf := dot_S4x2048x768_S3072x768_S4x2048x3072_2_1_01_0_n_n_wf
def dot_S4x2048x3072_S768x3072_S4x2048x768_2_1_01_0_n_n : DotDims S4x2048x3072 S768x3072 S4x2048x768 where
  lhsContracting := [2]
  rhsContracting := [1]
  lhsNonContracting := [0, 1]
  rhsNonContracting := [0]
  lhsBatch := []
  rhsBatch := []
  wf := dot_S4x2048x3072_S768x3072_S4x2048x768_2_1_01_0_n_n_wf

class Facts : Prop extends Facts₀ where

variable [Facts]
-- ==== Proof.Spec.lean ====
/-
  The feed-forward layer as one function of its five arrays, over the extended reals.

  For one token row `x` (768 entries), hidden unit `f` (of 3072) is
      h f = max (∑ k, x k · wi[f, k] + bi[f]) 0
  and output entry `d` (of 768) is
      (∑ f, h f · wo[d, f]) + bo[d].
  The zero under the maximum is kept as the float word both programs print, so it is never evaluated.
  `layer` reads the rows off a [4, 2048, 768] array with rank-1 biases; `layerFlat` reads them off the
  same tokens flattened to [8192, 768] with the biases as [1, n] rows. `layer_eq_flat` says the two agree
  once the flat arrays are the row-major re-reading of the others: nothing but index arithmetic,
  (b, s) ↦ b · 2048 + s, so no law of the extended reals is needed at all.
-/
import Idealize.ShloMosaic.PureOps.Ideal
import Idealize.ShloMosaic.Lib.ValueIdx

noncomputable section

namespace Cert.Ffn

open Idealize.ShloMosaic Idealize.ShloMosaic.ValueIdx

/-- Hidden unit `f` of a token row: the row against row `f` of `wi`, plus the bias, clamped below at the zero word. -/
def hidden (x : Fin 768 → EReal) (wi : (⟨2, ![3072, 768]⟩ : Shape).Idx → EReal) (bi : Fin 3072 → EReal) (f : Fin 3072) : EReal :=
  max ((∑ k : Fin 768, x k * wi (ix2 f k)) + bi f) (Ideal.ofBits .f32 0x00000000#32)

/-- Output entry `d` of a token row: the hidden units against row `d` of `wo`, plus the bias. -/
def outRow (x : Fin 768 → EReal) (wi : (⟨2, ![3072, 768]⟩ : Shape).Idx → EReal) (bi : Fin 3072 → EReal)
    (wo : (⟨2, ![768, 3072]⟩ : Shape).Idx → EReal) (bo : Fin 768 → EReal) (d : Fin 768) : EReal :=
  (∑ f : Fin 3072, hidden x wi bi f * wo (ix2 d f)) + bo d

/-- `outRow` depends on its row, biases and entry only through their values. -/
theorem outRow_congr {x x' : Fin 768 → EReal} {wi wi' : (⟨2, ![3072, 768]⟩ : Shape).Idx → EReal} {bi bi' : Fin 3072 → EReal}
    {wo wo' : (⟨2, ![768, 3072]⟩ : Shape).Idx → EReal} {bo bo' : Fin 768 → EReal} {d d' : Fin 768}
    (hx : ∀ k, x k = x' k) (hwi : wi = wi') (hbi : ∀ f, bi f = bi' f) (hwo : wo = wo') (hbo : ∀ e, bo e = bo' e) (hd : d = d') :
    outRow x wi bi wo bo d = outRow x' wi' bi' wo' bo' d' := by
  rw [funext hx, hwi, funext hbi, hwo, funext hbo, hd]

/-- The layer over [4, 2048, 768] tokens, the biases rank-1. -/
def layer (x : (⟨3, ![4, 2048, 768]⟩ : Shape).Idx → EReal) (wi : (⟨2, ![3072, 768]⟩ : Shape).Idx → EReal)
    (bi : (⟨1, ![3072]⟩ : Shape).Idx → EReal) (wo : (⟨2, ![768, 3072]⟩ : Shape).Idx → EReal)
    (bo : (⟨1, ![768]⟩ : Shape).Idx → EReal) : (⟨3, ![4, 2048, 768]⟩ : Shape).Idx → EReal :=
  fun i => outRow (fun k => x (ix3 (i 0) (i 1) k)) wi (fun f => bi (ix1 f)) wo (fun d => bo (ix1 d)) (i 2)

/-- The layer over the tokens flattened to [8192, 768], the biases [1, n] rows. -/
def layerFlat (x : (⟨2, ![8192, 768]⟩ : Shape).Idx → EReal) (wi : (⟨2, ![3072, 768]⟩ : Shape).Idx → EReal)
    (bi : (⟨2, ![1, 3072]⟩ : Shape).Idx → EReal) (wo : (⟨2, ![768, 3072]⟩ : Shape).Idx → EReal)
    (bo : (⟨2, ![1, 768]⟩ : Shape).Idx → EReal) : (⟨2, ![8192, 768]⟩ : Shape).Idx → EReal :=
  fun i => outRow (fun k => x (ix2 (i 0) k)) wi (fun f => bi (ix2 (0 : Fin 1) f)) wo (fun d => bo (ix2 (0 : Fin 1) d)) (i 1)

/-- Token (b, s) is flat row b · 2048 + s. -/
def flatRow (b : Fin 4) (s : Fin 2048) : Fin 8192 := ⟨b.val * 2048 + s.val, by have := b.isLt; have := s.isLt; omega⟩

/-- If the flat token array reads the [4, 2048, 768] one row-major and the [1, n] biases read the rank-1 ones,
    the flat layer at row b · 2048 + s is the layer at (b, s). -/
theorem layer_eq_flat (x : (⟨3, ![4, 2048, 768]⟩ : Shape).Idx → EReal) (wi : (⟨2, ![3072, 768]⟩ : Shape).Idx → EReal)
    (bi : (⟨1, ![3072]⟩ : Shape).Idx → EReal) (wo : (⟨2, ![768, 3072]⟩ : Shape).Idx → EReal) (bo : (⟨1, ![768]⟩ : Shape).Idx → EReal)
    (xFlat : (⟨2, ![8192, 768]⟩ : Shape).Idx → EReal) (biRow : (⟨2, ![1, 3072]⟩ : Shape).Idx → EReal) (boRow : (⟨2, ![1, 768]⟩ : Shape).Idx → EReal)
    (hx : ∀ (b : Fin 4) (s : Fin 2048) (k : Fin 768), xFlat (ix2 (flatRow b s) k) = x (ix3 b s k))
    (hbi : ∀ f : Fin 3072, biRow (ix2 (0 : Fin 1) f) = bi (ix1 f))
    (hbo : ∀ d : Fin 768, boRow (ix2 (0 : Fin 1) d) = bo (ix1 d))
    (b : Fin 4) (s : Fin 2048) (d : Fin 768) :
    layerFlat xFlat wi biRow wo boRow (ix2 (flatRow b s) d) = layer x wi bi wo bo (ix3 b s d) := by
  show outRow (fun k => xFlat (ix2 (flatRow b s) k)) wi (fun f => biRow (ix2 (0 : Fin 1) f)) wo (fun d => boRow (ix2 (0 : Fin 1) d)) d
      = outRow (fun k => x (ix3 b s k)) wi (fun f => bi (ix1 f)) wo (fun d => bo (ix1 d)) d
  rw [funext (hx b s), funext hbi, funext hbo]

end Cert.Ffn

end
-- ==== Proof.KernelRow.lean ====
/-
  What one grid step of the kernel stores, read at an entry (p, q) of its [1024, 768] block.

  Both products contract the LAST axis of both operands (rows against rows): the first, of the token block
  [1024, 768] with wi [3072, 768], has entry (p, f) = ∑ k, x[p, k] · wi[f, k]; the second, of the clamped
  hidden block [1024, 3072] with wo [768, 3072], has entry (p, q) = ∑ f, h[p, f] · wo[q, f]. Each starts from
  the zero block, so it is just the sum. The narrowing to bf16 before each product is the identity over the
  extended reals, the biases are [1, n] rows broadcast down the block, and the shape casts are to the same shape.
  So the stored entry is `Cert.Ffn.outRow` of row p of the token block.
-/
import proofs.«123861_g67216238182688_cont_9to1_m_788_11_alg».proof.Proof.Gen.KernelIdeal.Skeleton
import proofs.«123861_g67216238182688_cont_9to1_m_788_11_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Row

open Cert.KernelIdeal Cert.KernelIdeal.Gen Idealize.ShloMosaic Idealize.ShloMosaic.ValueIdx

/-! ## The operand indices of the two products, axis by axis -/

theorem lhs_up_0 (i : S1024x3072.Idx) (q : dot_S1024x768_S3072x768_S1024x3072_1_1_0_0_n_n.contr.Idx) :
    (dot_S1024x768_S3072x768_S1024x3072_1_1_0_0_n_n.lhsIdx i q 0).val = (i 0).val := by
  unfold DotDims.lhsIdx
  rw [dif_neg (show ¬(0 : Fin S1024x768.rank) ∈ dot_S1024x768_S3072x768_S1024x3072_1_1_0_0_n_n.lhsBatch by decide), dif_pos (show (0 : Fin S1024x768.rank) ∈ dot_S1024x768_S3072x768_S1024x3072_1_1_0_0_n_n.lhsNonContracting by decide)]
  rfl
theorem lhs_up_1 (i : S1024x3072.Idx) (q : dot_S1024x768_S3072x768_S1024x3072_1_1_0_0_n_n.contr.Idx) :
    (dot_S1024x768_S3072x768_S1024x3072_1_1_0_0_n_n.lhsIdx i q 1).val = (q ⟨0, by decide⟩).val :=
  dot_S1024x768_S3072x768_S1024x3072_1_1_0_0_n_n.lhsIdx_val_of_single rfl i q
theorem rhs_up_0 (i : S1024x3072.Idx) (q : dot_S1024x768_S3072x768_S1024x3072_1_1_0_0_n_n.contr.Idx) :
    (dot_S1024x768_S3072x768_S1024x3072_1_1_0_0_n_n.rhsIdx i q 0).val = (i 1).val := by
  unfold DotDims.rhsIdx
  rw [dif_neg (show ¬(0 : Fin S3072x768.rank) ∈ dot_S1024x768_S3072x768_S1024x3072_1_1_0_0_n_n.rhsBatch by decide), dif_pos (show (0 : Fin S3072x768.rank) ∈ dot_S1024x768_S3072x768_S1024x3072_1_1_0_0_n_n.rhsNonContracting by decide)]
  rfl
theorem rhs_up_1 (i : S1024x3072.Idx) (q : dot_S1024x768_S3072x768_S1024x3072_1_1_0_0_n_n.contr.Idx) :
    (dot_S1024x768_S3072x768_S1024x3072_1_1_0_0_n_n.rhsIdx i q 1).val = (q ⟨0, by decide⟩).val :=
  dot_S1024x768_S3072x768_S1024x3072_1_1_0_0_n_n.rhsIdx_val_of_single rfl i q

theorem lhs_down_0 (i : S1024x768.Idx) (q : dot_S1024x3072_S768x3072_S1024x768_1_1_0_0_n_n.contr.Idx) :
    (dot_S1024x3072_S768x3072_S1024x768_1_1_0_0_n_n.lhsIdx i q 0).val = (i 0).val := by
  unfold DotDims.lhsIdx
  rw [dif_neg (show ¬(0 : Fin S1024x3072.rank) ∈ dot_S1024x3072_S768x3072_S1024x768_1_1_0_0_n_n.lhsBatch by decide), dif_pos (show (0 : Fin S1024x3072.rank) ∈ dot_S1024x3072_S768x3072_S1024x768_1_1_0_0_n_n.lhsNonContracting by decide)]
  rfl
theorem lhs_down_1 (i : S1024x768.Idx) (q : dot_S1024x3072_S768x3072_S1024x768_1_1_0_0_n_n.contr.Idx) :
    (dot_S1024x3072_S768x3072_S1024x768_1_1_0_0_n_n.lhsIdx i q 1).val = (q ⟨0, by decide⟩).val :=
  dot_S1024x3072_S768x3072_S1024x768_1_1_0_0_n_n.lhsIdx_val_of_single rfl i q
theorem rhs_down_0 (i : S1024x768.Idx) (q : dot_S1024x3072_S768x3072_S1024x768_1_1_0_0_n_n.contr.Idx) :
    (dot_S1024x3072_S768x3072_S1024x768_1_1_0_0_n_n.rhsIdx i q 0).val = (i 1).val := by
  unfold DotDims.rhsIdx
  rw [dif_neg (show ¬(0 : Fin S768x3072.rank) ∈ dot_S1024x3072_S768x3072_S1024x768_1_1_0_0_n_n.rhsBatch by decide), dif_pos (show (0 : Fin S768x3072.rank) ∈ dot_S1024x3072_S768x3072_S1024x768_1_1_0_0_n_n.rhsNonContracting by decide)]
  rfl
theorem rhs_down_1 (i : S1024x768.Idx) (q : dot_S1024x3072_S768x3072_S1024x768_1_1_0_0_n_n.contr.Idx) :
    (dot_S1024x3072_S768x3072_S1024x768_1_1_0_0_n_n.rhsIdx i q 1).val = (q ⟨0, by decide⟩).val :=
  dot_S1024x3072_S768x3072_S1024x768_1_1_0_0_n_n.rhsIdx_val_of_single rfl i q

/-! ## The two products at an entry -/

/-- The first product into the zero block: row p of the left operand against row f of the right. -/
theorem up_apply (a : FVec Ideal S1024x768 .bf16) (b : FVec Ideal S3072x768 .bf16) (p : Fin 1024) (f : Fin 3072) :
    matmul dot_S1024x768_S3072x768_S1024x3072_1_1_0_0_n_n none a b (constant S1024x3072 .f32 0x00000000#32) (ix2 p f)
      = ∑ k : Fin 768, a (ix2 p k) * b (ix2 f k) := by
  show FloatOps.matmul dot_S1024x768_S3072x768_S1024x3072_1_1_0_0_n_n none a b (constant S1024x3072 .f32 0x00000000#32) (ix2 p f) = _
  rw [Ideal.matmul_constant_zero_apply, ← Equiv.sum_comp (contrEquiv1 dot_S1024x768_S3072x768_S1024x3072_1_1_0_0_n_n 768 rfl rfl).symm]
  refine Finset.sum_congr rfl fun k _ => ?_
  have hk := contrEquiv1_symm_val dot_S1024x768_S3072x768_S1024x3072_1_1_0_0_n_n 768 rfl rfl k
  have el : dot_S1024x768_S3072x768_S1024x3072_1_1_0_0_n_n.lhsIdx (ix2 p f) ((contrEquiv1 dot_S1024x768_S3072x768_S1024x3072_1_1_0_0_n_n 768 rfl rfl).symm k) = ix2 p k := funext fun ax => Fin.ext (by
    match ax with
    | ⟨0, _⟩ => exact lhs_up_0 _ _
    | ⟨1, _⟩ => exact (lhs_up_1 _ _).trans hk)
  have er : dot_S1024x768_S3072x768_S1024x3072_1_1_0_0_n_n.rhsIdx (ix2 p f) ((contrEquiv1 dot_S1024x768_S3072x768_S1024x3072_1_1_0_0_n_n 768 rfl rfl).symm k) = ix2 f k := funext fun ax => Fin.ext (by
    match ax with
    | ⟨0, _⟩ => exact rhs_up_0 _ _
    | ⟨1, _⟩ => exact (rhs_up_1 _ _).trans hk)
  rw [el, er]

/-- The second product into the zero block: row p of the left operand against row q of the right. -/
theorem down_apply (a : FVec Ideal S1024x3072 .bf16) (b : FVec Ideal S768x3072 .bf16) (p : Fin 1024) (f : Fin 768) :
    matmul dot_S1024x3072_S768x3072_S1024x768_1_1_0_0_n_n none a b (constant S1024x768 .f32 0x00000000#32) (ix2 p f)
      = ∑ k : Fin 3072, a (ix2 p k) * b (ix2 f k) := by
  show FloatOps.matmul dot_S1024x3072_S768x3072_S1024x768_1_1_0_0_n_n none a b (constant S1024x768 .f32 0x00000000#32) (ix2 p f) = _
  rw [Ideal.matmul_constant_zero_apply, ← Equiv.sum_comp (contrEquiv1 dot_S1024x3072_S768x3072_S1024x768_1_1_0_0_n_n 3072 rfl rfl).symm]
  refine Finset.sum_congr rfl fun k _ => ?_
  have hk := contrEquiv1_symm_val dot_S1024x3072_S768x3072_S1024x768_1_1_0_0_n_n 3072 rfl rfl k
  have el : dot_S1024x3072_S768x3072_S1024x768_1_1_0_0_n_n.lhsIdx (ix2 p f) ((contrEquiv1 dot_S1024x3072_S768x3072_S1024x768_1_1_0_0_n_n 3072 rfl rfl).symm k) = ix2 p k := funext fun ax => Fin.ext (by
    match ax with
    | ⟨0, _⟩ => exact lhs_down_0 _ _
    | ⟨1, _⟩ => exact (lhs_down_1 _ _).trans hk)
  have er : dot_S1024x3072_S768x3072_S1024x768_1_1_0_0_n_n.rhsIdx (ix2 p f) ((contrEquiv1 dot_S1024x3072_S768x3072_S1024x768_1_1_0_0_n_n 3072 rfl rfl).symm k) = ix2 f k := funext fun ax => Fin.ext (by
    match ax with
    | ⟨0, _⟩ => exact rhs_down_0 _ _
    | ⟨1, _⟩ => exact (rhs_down_1 _ _).trans hk)
  rw [el, er]

/-! ## The stored block at an entry -/

/-- Entry (p, q) of what a grid step stores is the layer's output entry q of row p of the step's token block. -/
theorem pay_apply (x0 : Vec Ideal S1024x768 .f32) (x1 : Vec Ideal S3072x768 .f32) (x2 : Vec Ideal S1x3072 .f32)
    (x3 : Vec Ideal S768x3072 .f32) (x4 : Vec Ideal S1x768 .f32) (p : Fin 1024) (q : Fin 768) :
    k0_pay1 (F := Ideal) x0 x1 x2 x3 x4 (ix2 p q)
      = Cert.Ffn.outRow (fun k => x0 (ix2 p k)) x1 (fun f => x2 (ix2 (0 : Fin 1) f)) x3 (fun d => x4 (ix2 (0 : Fin 1) d)) q := by
  unfold k0_pay1 Cert.Ffn.outRow Cert.Ffn.hidden
  simp only [shapeCast_self]
  rw [addf_apply, down_apply, broadcastTo_1b_ab_apply]
  refine congrArg (· + x4 (ix2 (0 : Fin 1) q)) (Finset.sum_congr rfl fun f _ => ?_)
  rw [truncf_apply, truncf_apply, maximumf_apply, addf_apply, up_apply, broadcastTo_1b_ab_apply]
  rfl

/-- The same at any index of the block, by its two coordinates. -/
theorem pay_apply_idx (x0 : Vec Ideal S1024x768 .f32) (x1 : Vec Ideal S3072x768 .f32) (x2 : Vec Ideal S1x3072 .f32)
    (x3 : Vec Ideal S768x3072 .f32) (x4 : Vec Ideal S1x768 .f32) (j : S1024x768.Idx) :
    k0_pay1 (F := Ideal) x0 x1 x2 x3 x4 j
      = Cert.Ffn.outRow (fun k => x0 (ix2 (j 0) k)) x1 (fun f => x2 (ix2 (0 : Fin 1) f)) x3 (fun d => x4 (ix2 (0 : Fin 1) d)) (j 1) := by
  obtain ⟨p, q, rfl⟩ : ∃ (p : Fin 1024) (q : Fin 768), j = ix2 p q := ⟨j 0, j 1, eq_ix2 j⟩
  exact pay_apply x0 x1 x2 x3 x4 p q

end Cert.KernelIdeal.Row

end
-- ==== Proof.Reshape.lean ====
/-
  The kernel's program flattens the tokens to [8192, 768] and the biases to [1, n] before the grid runs, and
  folds the [8192, 768] result back to [4, 2048, 768] after it. A reshape keeps the row-major position, so the
  flat token array at (b · 2048 + s, k) is the original at (b, s, k), a [1, n] bias at (0, f) is the rank-1
  one at f, and the folded result at (b, s, d) is the flat one at (b · 2048 + s, d). Hence the folded flat
  layer of the flattened arrays is the layer of the originals.
-/
import proofs.«123861_g67216238182688_cont_9to1_m_788_11_alg».proof.Proof.Spec
import Idealize.ShloMosaic.Lib.Pipeline.Value
import Idealize.ShloMosaic.Lib.ValueLayout

noncomputable section

namespace Cert.Ffn

open Idealize.ShloMosaic Idealize.ShloMosaic.ValueIdx

/-- The flattened tokens at (b · 2048 + s, k) are the tokens at (b, s, k). -/
theorem flat_tokens_apply (x : (⟨3, ![4, 2048, 768]⟩ : Shape).Idx → EReal)
    (h : (⟨3, ![4, 2048, 768]⟩ : Shape).ShapeCasts ⟨2, ![8192, 768]⟩) (b : Fin 4) (s : Fin 2048) (k : Fin 768) :
    shapeCast ⟨2, ![8192, 768]⟩ x h (ix2 (flatRow b s) k) = x (ix3 b s k) :=
  shapeCast_apply x h _ _ (by
    rw [Shape.rowMajor_val_two, Shape.rowMajor_val_three]
    rfl)

/-- The folded result at (b, s, d) is the flat result at (b · 2048 + s, d). -/
theorem fold_result_apply (y : (⟨2, ![8192, 768]⟩ : Shape).Idx → EReal)
    (h : (⟨2, ![8192, 768]⟩ : Shape).ShapeCasts ⟨3, ![4, 2048, 768]⟩) (b : Fin 4) (s : Fin 2048) (d : Fin 768) :
    shapeCast ⟨3, ![4, 2048, 768]⟩ y h (ix3 b s d) = y (ix2 (flatRow b s) d) :=
  shapeCast_apply y h _ _ (by
    rw [Shape.rowMajor_val_two, Shape.rowMajor_val_three]
    rfl)

/-- The flat layer of the flattened arrays, folded back, is the layer of the originals. -/
theorem fold_layerFlat (x : (⟨3, ![4, 2048, 768]⟩ : Shape).Idx → EReal) (wi : (⟨2, ![3072, 768]⟩ : Shape).Idx → EReal)
    (bi : (⟨1, ![3072]⟩ : Shape).Idx → EReal) (wo : (⟨2, ![768, 3072]⟩ : Shape).Idx → EReal) (bo : (⟨1, ![768]⟩ : Shape).Idx → EReal)
    (hx : (⟨3, ![4, 2048, 768]⟩ : Shape).ShapeCasts ⟨2, ![8192, 768]⟩)
    (hbi : (⟨1, ![3072]⟩ : Shape).ShapeCasts ⟨2, ![1, 3072]⟩) (hbo : (⟨1, ![768]⟩ : Shape).ShapeCasts ⟨2, ![1, 768]⟩)
    (hy : (⟨2, ![8192, 768]⟩ : Shape).ShapeCasts ⟨3, ![4, 2048, 768]⟩) :
    shapeCast ⟨3, ![4, 2048, 768]⟩
        (layerFlat (shapeCast ⟨2, ![8192, 768]⟩ x hx) wi (shapeCast ⟨2, ![1, 3072]⟩ bi hbi) wo (shapeCast ⟨2, ![1, 768]⟩ bo hbo)) hy
      = layer x wi bi wo bo := by
  funext i
  obtain ⟨b, s, d, rfl⟩ : ∃ (b : Fin 4) (s : Fin 2048) (d : Fin 768), i = ix3 b s d := ⟨i 0, i 1, i 2, eq_ix3 i⟩
  rw [fold_result_apply]
  exact layer_eq_flat x wi bi wo bo _ _ _ (flat_tokens_apply x hx) (fun f => shapeCast_a_1a_apply bi hbi 0 f)
    (fun e => shapeCast_a_1a_apply bo hbo 0 e) b s d

end Cert.Ffn

end
-- ==== Proof.KernelRegion.lean ====
/-
  The kernel's program as a whole: what its result array holds after the run.

  The grid has 8 steps; step t reads rows 1024·t … 1024·t + 1023 of the flattened tokens, the whole of wi, wo
  and of the two [1, n] bias rows, and writes the same rows of the [8192, 768] output. By the entry lemma of a
  stored block, rows of the output block are `outRow` of the matching token rows, so each written block is that
  block of ONE array, the flat layer of the arrays the grid was launched on; the 8 blocks tile the output, so
  after the grid the output IS the flat layer. Before the grid the program only flattens the tokens and the
  biases, after it it folds the output back to [4, 2048, 768]; so the program's result is the layer of its
  five arguments.
-/
import proofs.«123861_g67216238182688_cont_9to1_m_788_11_alg».proof.Proof.Gen.KernelIdeal.Frame
import proofs.«123861_g67216238182688_cont_9to1_m_788_11_alg».proof.Proof.KernelRow
import proofs.«123861_g67216238182688_cont_9to1_m_788_11_alg».proof.Proof.Reshape
import Idealize.ShloMosaic.Lib.Pipeline.Value
import Idealize.ShloMosaic.Lib.StableHlo.Run

set_option maxRecDepth 16384

noncomputable section

namespace Cert.KernelIdeal.Region

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The output array after the grid: the flat layer of the five arrays the grid is launched on. -/
abbrev flatOut (c : Dev nD) : S8192x768.Idx → EReal :=
  Cert.Ffn.layerFlat (V m c main_v0) (V m c main_arg1) (V m c main_v1) (V m c main_arg3) (V m c main_v2)

/-! ## The block indices over the grid -/

/-- The token and output windows move together down the rows, one block a step; every other window, and the
    column index of those two, stays at block 0. -/
theorem blocks_move_together : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 7 :=
  (by decide +kernel : ∀ t : Fin grid0.N, _)

/-- Every row block of the output is some step's. -/
theorem every_row_block_visited : ∀ q : Fin 8, ∃ t : Fin cfg0.N, win0_5.index t = ![q.val, 0] :=
  (by decide +kernel : ∀ q : Fin 8, ∃ t : Fin grid0.N, win0_5.index t = ![q.val, 0])

/-! ## What a step writes back -/

/-- Step `t` writes back block `t` of the flat layer. -/
theorem step_writes_layer_block (c : Dev nD) (t : Fin cfg0.N) :
    (dats m 0 c).flushed 5 t = ((cfg0.win 5).blk t).view.read (Elt Ideal) (flatOut m c) := by
  show (cfg0.win 5).cut (grid0.coords t) ((dats m 0 c).after 5 t) = _
  rw [after0_5]
  unfold out0_5
  rw [View.canon_unit_zero zero_offsets]
  simp only [View.ld_unit_zero (S := S1024x768) zero_offsets, View.ld_unit_zero (S := S3072x768) zero_offsets,
    View.ld_unit_zero (S := S1x3072) zero_offsets, View.ld_unit_zero (S := S768x3072) zero_offsets, View.ld_unit_zero (S := S1x768) zero_offsets]
  obtain ⟨e0, e1, e2, e3, e4, e5, e6, e7, e8, e9, e10, e11⟩ := blocks_move_together t
  funext j
  refine (Row.pay_apply_idx (iblk m c 0 t) (iblk m c 1 t) (iblk m c 2 t) (iblk m c 3 t) (iblk m c 4 t) j).trans ?_
  show _ = Cert.Ffn.outRow (fun k => V m c main_v0 (ix2 ((((cfg0.win 5).blk t).view.emb j) 0) k)) (V m c main_arg1)
    (fun f => V m c main_v1 (ix2 (0 : Fin 1) f)) (V m c main_arg3) (fun d => V m c main_v2 (ix2 (0 : Fin 1) d)) ((((cfg0.win 5).blk t).view.emb j) 1)
  refine Cert.Ffn.outRow_congr (fun k => ?_) ?_ (fun f => ?_) ?_ (fun d => ?_) ?_
  · show V m c main_v0 (((cfg0.win 0).blk t).view.emb (ix2 (j 0) k)) = _
    refine congrArg (V m c main_v0) (funext fun a => Fin.ext ?_)
    match a with
    | ⟨0, _⟩ => show win0_0.index t (0 : Fin 2) * 1024 + 1 * (j 0).val = win0_5.index t (0 : Fin 2) * 1024 + 1 * (j 0).val; omega
    | ⟨1, _⟩ => show win0_0.index t (1 : Fin 2) * 768 + 1 * k.val = k.val; omega
  · funext y
    show V m c main_arg1 (((cfg0.win 1).blk t).view.emb y) = V m c main_arg1 y
    refine congrArg (V m c main_arg1) (funext fun a => Fin.ext ?_)
    match a with
    | ⟨0, _⟩ => show win0_1.index t (0 : Fin 2) * 3072 + 1 * (y 0).val = (y 0).val; omega
    | ⟨1, _⟩ => show win0_1.index t (1 : Fin 2) * 768 + 1 * (y 1).val = (y 1).val; omega
  · show V m c main_v1 (((cfg0.win 2).blk t).view.emb (ix2 (0 : Fin 1) f)) = _
    refine congrArg (V m c main_v1) (funext fun a => Fin.ext ?_)
    match a with
    | ⟨0, _⟩ => show win0_2.index t (0 : Fin 2) * 1 + 1 * 0 = 0; omega
    | ⟨1, _⟩ => show win0_2.index t (1 : Fin 2) * 3072 + 1 * f.val = f.val; omega
  · funext y
    show V m c main_arg3 (((cfg0.win 3).blk t).view.emb y) = V m c main_arg3 y
    refine congrArg (V m c main_arg3) (funext fun a => Fin.ext ?_)
    match a with
    | ⟨0, _⟩ => show win0_3.index t (0 : Fin 2) * 768 + 1 * (y 0).val = (y 0).val; omega
    | ⟨1, _⟩ => show win0_3.index t (1 : Fin 2) * 3072 + 1 * (y 1).val = (y 1).val; omega
  · show V m c main_v2 (((cfg0.win 4).blk t).view.emb (ix2 (0 : Fin 1) d)) = _
    refine congrArg (V m c main_v2) (funext fun a => Fin.ext ?_)
    match a with
    | ⟨0, _⟩ => show win0_4.index t (0 : Fin 2) * 1 + 1 * 0 = 0; omega
    | ⟨1, _⟩ => show win0_4.index t (1 : Fin 2) * 768 + 1 * d.val = d.val; omega
  · refine Fin.ext ?_
    show (j 1).val = win0_5.index t (1 : Fin 2) * 768 + 1 * (j 1).val
    omega

/-! ## The blocks tile the output -/

/-- An index of the output is in step `t`'s block iff each coordinate is in the block's range on its axis. -/
theorem mem_out_block (t : Fin cfg0.N) (i : S8192x768.Idx) :
    i ∈ ((cfg0.win 5).blk t).view.set ↔ ∀ a : Fin 2, win0_5.index t a * S1024x768.size a ≤ (i a).val ∧ (i a).val < win0_5.index t a * S1024x768.size a + S1024x768.size a := by
  show i ∈ ((View.whole main_v3).slice (win0_5.rect t)).set ↔ _
  rw [View.set_slice_whole, Rect.mem_set_unit]
  exact Iff.rfl

/-- Row r of the output is written by the step whose block is r / 1024. -/
theorem out_rows_tiled (i : S8192x768.Idx) :
    ∃ t : Fin cfg0.N, (cfg0.win 5).flush t = true ∧ i ∈ ((cfg0.win 5).blk t).view.set := by
  have hi0 : (i 0).val < 8192 := (i 0).isLt
  have hi1 : (i 1).val < 768 := (i 1).isLt
  obtain ⟨t, ht⟩ := every_row_block_visited ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_out_block]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 768 ≤ (i 1).val ∧ (i 1).val < win0_5.index t (1 : Fin 2) * 768 + 768; omega

/-- The output array after the grid is the flat layer. -/
theorem out_array (c : Dev nD) : (dats m 0 c).arrAt 5 cfg0.N = flatOut m c :=
  (dats m 0 c).arrAt_eq_of_cover 5 (flatOut m c) (fun t _ => step_writes_layer_block m c t) out_rows_tiled

/-! ## The host lines around the grid -/

/-- The grid finds the tokens flattened, -/
theorem V_tokens (c : Dev nD) : (V m c main_v0 : S8192x768.Idx → EReal)
    = shapeCast S8192x768 (m ((c : Thread nD τ).loc main_arg0)) shapeCasts_S4x2048x768_S8192x768 := by
  show StableHlo.after hostOps0 (fun b => m (c, b)) (Proc.devRef .tc main_v0) = _
  after_results
  rfl
/-- the first bias as a [1, 3072] row, -/
theorem V_bias1 (c : Dev nD) : (V m c main_v1 : S1x3072.Idx → EReal)
    = shapeCast S1x3072 (m ((c : Thread nD τ).loc main_arg2)) shapeCasts_S3072_S1x3072 := by
  show StableHlo.after hostOps0 (fun b => m (c, b)) (Proc.devRef .tc main_v1) = _
  after_results
  rfl
/-- the second bias as a [1, 768] row. -/
theorem V_bias2 (c : Dev nD) : (V m c main_v2 : S1x768.Idx → EReal)
    = shapeCast S1x768 (m ((c : Thread nD τ).loc main_arg4)) shapeCasts_S768_S1x768 := by
  show StableHlo.after hostOps0 (fun b => m (c, b)) (Proc.devRef .tc main_v2) = _
  after_results
  rfl

/-- The program's result: the output array folded back, which is the layer of the five arguments. -/
theorem result_eq (c : Dev nD) :
    Pipeline.afterTail₀ cfgs (dats m) 0 (V0 m) [hostOps1] c main_v4
      = Cert.Ffn.layer (m ((c : Thread nD τ).loc main_arg0)) (m ((c : Thread nD τ).loc main_arg1)) (m ((c : Thread nD τ).loc main_arg2))
          (m ((c : Thread nD τ).loc main_arg3)) (m ((c : Thread nD τ).loc main_arg4)) := by
  have hout : Pipeline.withArrays spec0 c (V0 m c) (fun w => (dats m 0 c).arrAt w cfg0.N) (Proc.devRef .tc main_v3) = flatOut m c :=
    (Pipeline.withArrays_arr spec0 launch0.win.arr_inj c _ _ 5).trans (out_array m c)
  unfold Pipeline.afterTail₀
  show StableHlo.after hostOps1 _ (Proc.devRef .tc main_v4) = _
  after_results
  rw [hout]
  unfold flatOut
  rw [V_tokens, V_bias1, V_bias2, V_main_arg1, V_main_arg3]
  exact Cert.Ffn.fold_layerFlat _ _ _ _ _ _ _ _ _

/-! ## The run, read -/

/-- Every weakly fair execution of the program ends with its result at the layer of the arguments, the arguments unchanged. -/
theorem run : θ_run defs (onTc (τ := τ) (main (F := Ideal))) ⟨m, fun _ => 0, ρ⟩ fun r => ∀ c : Dev nD,
      r.2.mem ((c.tc : Thread nD τ).loc main_v4)
        = Cert.Ffn.layer (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
      ⟨((h c).2 main_v4 (Pipeline.mem_restRefs_of main_v4 (by decide) (by decide))).trans (result_eq m c),
        (((h c).2 main_arg0 (Pipeline.mem_restRefs_of main_arg0 (by decide) (by decide))).trans (W_main_arg0 m (dats m) c)),
        ((h c).1 1).trans (((dats m 0 c).arrAt_in 1 rfl _).trans ((A_eq m c 1).trans (V_main_arg1 m c))),
        (((h c).2 main_arg2 (Pipeline.mem_restRefs_of main_arg2 (by decide) (by decide))).trans (W_main_arg2 m (dats m) c)),
        ((h c).1 3).trans (((dats m 0 c).arrAt_in 3 rfl _).trans ((A_eq m c 3).trans (V_main_arg3 m c))),
        (((h c).2 main_arg4 (Pipeline.mem_restRefs_of main_arg4 (by decide) (by decide))).trans (W_main_arg4 m (dats m) c))⟩)
    (run_main m ρ)

end Cert.KernelIdeal.Region

end
-- ==== Proof.Reference.lean ====
/-
  The reference computes the layer: its eleven host operations, read one at a time at an index, compose to
  `Cert.Ffn.layer` of its five arguments.

  The first `dot_general` contracts axis 2 of the tokens with axis 1 of `wi`: entry (b, s, f) is
  ∑ k, x[b, s, k] · wi[f, k]. The bias is broadcast along the last axis, the maximum is taken against the
  broadcast zero word, and the second `dot_general` contracts the hidden axis with axis 1 of `wo`:
  entry (b, s, d) is ∑ f, h[b, s, f] · wo[d, f], plus bo[d]. Term for term this is `outRow` of the token row (b, s).
-/
import proofs.«123861_g67216238182688_cont_9to1_m_788_11_alg».proof.Proof.Gen.ReferenceIdeal.Read
import proofs.«123861_g67216238182688_cont_9to1_m_788_11_alg».proof.Proof.Spec

noncomputable section

namespace Cert.ReferenceIdeal.Layer

open Cert.ReferenceIdeal Cert.ReferenceIdeal.Read Idealize.ShloMosaic Idealize.ShloMosaic.ValueIdx

/-- The hidden activations the reference holds at (b, s, f) are the hidden unit f of token row (b, s). -/
theorem hidden_eq (x0 : S4x2048x768.Idx → EReal) (x1 : S3072x768.Idx → EReal) (x2 : S3072.Idx → EReal)
    (b : Fin 4) (s : Fin 2048) (f : Fin 3072) :
    val_main_v4 (F := Ideal) x0 x1 x2 (ix3 b s f)
      = Cert.Ffn.hidden (fun k => x0 (ix3 b s k)) x1 (fun f => x2 (ix1 f)) f := by
  have el : ∀ k : Fin 768, lidx_main_v0 (ix3 b s f) k = ix3 b s k := fun k => funext fun a =>
    match a with | ⟨0, _⟩ => rfl | ⟨1, _⟩ => rfl | ⟨2, _⟩ => rfl
  have er : ∀ k : Fin 768, ridx_main_v0 (ix3 b s f) k = ix2 f k := fun k => funext fun a =>
    match a with | ⟨0, _⟩ => rfl | ⟨1, _⟩ => rfl
  have eb : idx_main_v1 (idx_main_v2 (ix3 b s f)) = ix1 f := funext fun a =>
    match a with | ⟨0, _⟩ => rfl
  rw [val_main_v4_apply, val_main_v3_apply, val_main_v0_apply, val_main_v2_apply, val_main_v1_apply,
    val_main_call0_v0_apply, val_main_call0_cst_apply, eb]
  simp only [el, er]
  rfl

/-- The reference's result, as a whole array, is the layer of its arguments. -/
theorem result_eq (x0 : S4x2048x768.Idx → EReal) (x1 : S3072x768.Idx → EReal) (x2 : S3072.Idx → EReal)
    (x3 : S768x3072.Idx → EReal) (x4 : S768.Idx → EReal) :
    val_main_v8 (F := Ideal) x0 x1 x2 x3 x4 = Cert.Ffn.layer x0 x1 x2 x3 x4 := by
  funext i
  obtain ⟨b, s, d, rfl⟩ : ∃ (b : Fin 4) (s : Fin 2048) (d : Fin 768), i = ix3 b s d := ⟨i 0, i 1, i 2, eq_ix3 i⟩
  have el : ∀ f : Fin 3072, lidx_main_v5 (ix3 b s d) f = ix3 b s f := fun f => funext fun a =>
    match a with | ⟨0, _⟩ => rfl | ⟨1, _⟩ => rfl | ⟨2, _⟩ => rfl
  have er : ∀ f : Fin 3072, ridx_main_v5 (ix3 b s d) f = ix2 d f := fun f => funext fun a =>
    match a with | ⟨0, _⟩ => rfl | ⟨1, _⟩ => rfl
  have eb : idx_main_v6 (idx_main_v7 (ix3 b s d)) = ix1 d := funext fun a =>
    match a with | ⟨0, _⟩ => rfl
  rw [val_main_v8_apply, val_main_v5_apply, val_main_v7_apply, val_main_v6_apply, eb]
  simp only [el, er, hidden_eq]
  rfl

end Cert.ReferenceIdeal.Layer

end
-- ==== Proof.lean ====
/-
  A dense feed-forward layer, out = relu(x · wiᵀ + bi) · woᵀ + bo, as a Pallas kernel over 8 blocks of 1024 token
  rows against the two-einsum jnp reference. Over the extended reals both programs compute, at token (b, s) and
  output column d,
      (∑ f, max (∑ k, x[b, s, k] · wi[f, k] + bi[f]) 0 · wo[d, f]) + bo[d]
  (`Cert.Ffn.layer`): the kernel's narrowing to bf16 is the identity there, each of its products starts from the
  zero block, and its tiling by token rows and its reshapes only re-index. The two sides are the same sums of the
  same products term for term, so no law of the extended reals beyond 0 + s = s is used and the finiteness
  precondition is never opened.

  The frames of the two kernel programs are the generated ones; the reference's frame is its generated run with
  the result dropped; the idealization rewrote nothing, so `preserves` is trivial.
-/
import proofs.«123861_g67216238182688_cont_9to1_m_788_11_alg».proof.Defs
import proofs.«123861_g67216238182688_cont_9to1_m_788_11_alg».proof.Proof.Gen.Kernel
import proofs.«123861_g67216238182688_cont_9to1_m_788_11_alg».proof.Proof.Gen.Kernel.Frame
import proofs.«123861_g67216238182688_cont_9to1_m_788_11_alg».proof.Proof.Gen.KernelIdeal
import proofs.«123861_g67216238182688_cont_9to1_m_788_11_alg».proof.Proof.Gen.KernelIdeal.Frame
import proofs.«123861_g67216238182688_cont_9to1_m_788_11_alg».proof.Proof.Gen.ReferenceIdeal
import proofs.«123861_g67216238182688_cont_9to1_m_788_11_alg».proof.Proof.Gen.ReferenceIdeal.Run
import proofs.«123861_g67216238182688_cont_9to1_m_788_11_alg».proof.Proof.Gen.ReferenceIdeal.Read
import proofs.«123861_g67216238182688_cont_9to1_m_788_11_alg».proof.Proof.Gen.Pre_finite_inputs
import proofs.«123861_g67216238182688_cont_9to1_m_788_11_alg».proof.Proof.KernelRegion
import proofs.«123861_g67216238182688_cont_9to1_m_788_11_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the layer of their arguments, and the arguments agree. -/
theorem algebraic : Cert.algebraic_KernelIdeal_ReferenceIdeal := by
  intro m ρ m' ρ' _ hagree
  refine ⟨_, Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Layer.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
